-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S256x512 : Shape := ⟨2, ![256, 512]⟩
abbrev S1x256 : Shape := ⟨2, ![1, 256]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S1x256 : S_.BroadcastsInDim S1x256 (![] : Fin 0 → Fin S1x256.rank)
  reducesTo_S1x256_S_d0_1 : S1x256.ReducesTo [0, 1] S_

variable [Facts]

def fn {F : FTy → Type} [FloatOps F] (main_arg0 : FVec F S65536x512 .f32) (main_arg1 : FVec F S256x512 .f32) (main_arg2 : FVec F S1x256 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  main_v13
-- ==== Kernel.lean ====
abbrev S65536x512 : Shape := ⟨2, ![65536, 512]⟩
abbrev S256x512 : Shape := ⟨2, ![256, 512]⟩
abbrev S1x256 : Shape := ⟨2, ![1, 256]⟩
abbrev S65536x256 : Shape := ⟨2, ![65536, 256]⟩
abbrev S2048x512 : Shape := ⟨2, ![2048, 512]⟩
abbrev S2048x256 : Shape := ⟨2, ![2048, 256]⟩

abbrev nBuf : Space → Nat
  | .hbm => 4
  | .vmem => 6
  | .smem => 0
  | _ => 0

abbrev bufTy : (tb : Table) → Fin (tcTables nBuf tb) → BufTy
  | .hbm, ⟨0, _⟩ => ⟨S65536x512, .f32⟩
  | .hbm, ⟨1, _⟩ => ⟨S256x512, .f32⟩
  | .hbm, ⟨2, _⟩ => ⟨S1x256, .f32⟩
  | .hbm, ⟨3, _⟩ => ⟨S65536x256, .f32⟩
  | .local _ .vmem, ⟨0, _⟩ => ⟨S2048x512, .f32⟩
  | .local _ .vmem, ⟨1, _⟩ => ⟨S2048x512, .f32⟩
  | .local _ .vmem, ⟨2, _⟩ => ⟨S256x512, .f32⟩
  | .local _ .vmem, ⟨3, _⟩ => ⟨S1x256, .f32⟩
  | .local _ .vmem, ⟨4, _⟩ => ⟨S2048x256, .f32⟩
  | .local _ .vmem, ⟨5, _⟩ => ⟨S2048x256, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S1x256_S1x256_0_0 : ∀ a, (![0, 0] : Fin 2 → Nat) a + S1x256.size a ≤ S1x256.size a
  h_S1x256 : 0 < S1x256.numel
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  dot_S2048x512_S256x512_S2048x256_1_1_0_0_n_n_wf : DotDims.WF S2048x512 S256x512 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S65536x256.size a
  hwx0_3 : ∀ i : grid0.Coords, EltTy.bits .f32 = 32 ∨ (Rect.block (s := S65536x256) S2048x256.size (cc0_transform_3 i) (hinb0_3 i)).WholeWords (EltTy.packing .f32)

variable [Facts₀]

def dot_S2048x512_S256x512_S2048x256_1_1_0_0_n_n : DotDims S2048x512 S256x512 S2048x256 where
  lhsContracting := [1]
  rhsContracting := [1]
  lhsNonContracting := [0]
  rhsNonContracting := [0]
  lhsBatch := []
  rhsBatch := []
  wf := dot_S2048x512_S256x512_S2048x256_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x512 : Shape := ⟨2, ![65536, 512]⟩
abbrev S256x512 : Shape := ⟨2, ![256, 512]⟩
abbrev S1x256 : Shape := ⟨2, ![1, 256]⟩
abbrev S_ : Shape := ⟨0, ![]⟩
abbrev S65536x256 : Shape := ⟨2, ![65536, 256]⟩

abbrev nBuf : Space → Nat
  | .hbm => 15
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S256x512, .f32⟩
  | .hbm, ⟨2, _⟩ => ⟨S1x256, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S65536x256, .f32⟩
  | .hbm, ⟨8, _⟩ => ⟨S65536x256, .f32⟩
  | .hbm, ⟨9, _⟩ => ⟨S65536x256, .f32⟩
  | .hbm, ⟨10, _⟩ => ⟨S_, .f32⟩
  | .hbm, ⟨11, _⟩ => ⟨S1x256, .f32⟩
  | .hbm, ⟨12, _⟩ => ⟨S1x256, .f32⟩
  | .hbm, ⟨13, _⟩ => ⟨S65536x256, .f32⟩
  | .hbm, ⟨14, _⟩ => ⟨S65536x256, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S_S65536x256 : S_.BroadcastsInDim S65536x256 (![] : Fin 0 → Fin S65536x256.rank)
  bcast_S_S1x256 : S_.BroadcastsInDim S1x256 (![] : Fin 0 → Fin S1x256.rank)
  bcast_S1x256_S65536x256_0_1 : S1x256.BroadcastsInDim S65536x256 (![0, 1] : Fin 2 → Fin S65536x256.rank)
  dot_S65536x512_S256x512_S65536x256_1_1_0_0_n_n_wf : DotDims.WF S65536x512 S256x512 S65536x256 [1] [1] [0] [0] [] []

variable [Facts₀]

def dot_S65536x512_S256x512_S65536x256_1_1_0_0_n_n : DotDims S65536x512 S256x512 S65536x256 where
  lhsContracting := [1]
  rhsContracting := [1]
  lhsNonContracting := [0]
  rhsNonContracting := [0]
  lhsBatch := []
  rhsBatch := []
  wf := dot_S65536x512_S256x512_S65536x256_1_1_0_0_n_n_wf

class Facts : Prop extends Facts₀ where

variable [Facts]
-- ==== Proof.Spec.lean ====
/-
  The value both programs compute, as one function of the three argument arrays, and the one numerical fact
  that joins them.

  For a batch row `r` and an output feature `o` the result entry is

      (∑ k < 512, x (r, k) · w (o, k)) · (1 / 8) + b (0, o) · (1 / 10 as a float word)

  on the extended reals. One program spells the factor `1 / 8` as the float word of `0.125`; the other computes
  it as `1 / √64`. The square root of `64` is exactly `8`, and dividing `1` by `8` is exactly `0.125`, so the two
  spellings denote one extended real. The bias factor is the same float word on both sides and is never
  evaluated.
-/
import Idealize.ShloMosaic.PureOps.Ideal
import Idealize.ShloMosaic.PureOps.Ideal.Laws
import Idealize.ShloMosaic.Lib.ValueIdx

noncomputable section

open scoped BigOperators

namespace Cert.ScaledLinear

open Idealize.ShloMosaic Idealize.ShloMosaic.ValueIdx

/-- The scaled linear map with bias: entry `(r, o)` is the inner product of row `r` of `x` with row `o` of `w`,
    times the word of `0.125`, plus the bias entry `(0, o)` times the word of `0.1`. -/
def scaledLinear (x : FVec Ideal ⟨2, ![65536, 512]⟩ .f32) (w : FVec Ideal ⟨2, ![256, 512]⟩ .f32)
    (b : FVec Ideal ⟨2, ![1, 256]⟩ .f32) : FVec Ideal ⟨2, ![65536, 256]⟩ .f32 :=
  fun i => (∑ k : Fin 512, x (ix2 (i 0) k) * w (ix2 (i 1) k)) * Ideal.ofBits .f32 0x3E000000#32
    + b (ix2 (0 : Fin 1) (i 1)) * Ideal.ofBits .f32 0x3DCCCCCD#32

/-- The float word of `64.0` denotes the real `64`. -/
theorem ofBits_sixtyFour : Ideal.ofBits .f32 0x42800000#32 = ((64 : ℝ) : EReal) := by
  simp [Ideal.ofBits, Ideal.ieee, -EReal.coe_mul]; norm_num

/-- The float word of `1.0` denotes `1`. -/
theorem ofBits_one : Ideal.ofBits .f32 0x3F800000#32 = ((1 : ℝ) : EReal) := by
  simp [Ideal.ofBits, Ideal.ieee, -EReal.coe_mul]; norm_num

/-- The float word of `0.125` denotes the real `1 / 8`. -/
theorem ofBits_eighth : Ideal.ofBits .f32 0x3E000000#32 = ((1 / 8 : ℝ) : EReal) := by
  simp [Ideal.ofBits, Ideal.ieee, -EReal.coe_mul]; norm_num

/-- The square root of `64` is `8`. -/
theorem sqrt_sixtyFour : Real.sqrt 64 = 8 := by
  rw [show (64 : ℝ) = 8 ^ 2 by norm_num]
  exact Real.sqrt_sq (by norm_num)

/-- `1 / √64`, computed on the extended reals from the words of `1.0` and `64.0`, is the word of `0.125`. -/
theorem one_div_sqrt_sixtyFour :
    Ideal.div (Ideal.ofBits .f32 0x3F800000#32) (Ideal.sqrt (Ideal.ofBits .f32 0x42800000#32))
      = Ideal.ofBits .f32 0x3E000000#32 := by
  rw [ofBits_sixtyFour, ofBits_one, ofBits_eighth, Ideal.sqrt_coe, if_neg (by norm_num), sqrt_sixtyFour,
    Ideal.div_coe (by norm_num : (8 : ℝ) ≠ 0), ← EReal.coe_mul]
  norm_num

end Cert.ScaledLinear

end
-- ==== Proof.RefValue.lean ====
/-
  The reference, read entry by entry, is the scaled linear map with bias.

  Its last stage adds two arrays. The first is the product of `x` with the transpose of `w`, each entry a sum
  over the 512 shared columns, times a scalar the program computes as `1 / √64` and spreads over the whole
  array; that scalar is the word of `0.125`. The second is the bias row times the word of `0.1`, repeated down
  the 65536 rows. Reading both at an entry `(r, o)` gives the specification's formula.
-/
import proofs.«156276_j60790967108190_1_alg».proof.Proof.Gen.ReferenceIdeal.Read
import proofs.«156276_j60790967108190_1_alg».proof.Proof.Spec

noncomputable section

open scoped BigOperators

namespace Cert.ReferenceIdeal.RefValue

open Cert.ReferenceIdeal Cert.ReferenceIdeal.Read Idealize.ShloMosaic Idealize.ShloMosaic.ValueIdx Cert.ScaledLinear

/-- The left operand of the product is read at the output's row and the summed column. -/
theorem lidx_eq (i : S65536x256.Idx) (k : Fin 512) : lidx_main_v2 i k = ix2 (i 0) k :=
  funext fun a => Fin.ext (by match a with | ⟨0, _⟩ => rfl | ⟨1, _⟩ => rfl)

/-- The right operand is read at the row named by the output's column and the summed column: the transpose. -/
theorem ridx_eq (i : S65536x256.Idx) (k : Fin 512) : ridx_main_v2 i k = ix2 (i 1) k :=
  funext fun a => Fin.ext (by match a with | ⟨0, _⟩ => rfl | ⟨1, _⟩ => rfl)

/-- The repeated bias row is read at its only row and the output's column. -/
theorem bidx_eq (i : S65536x256.Idx) : idx_main_v7 i = ix2 (0 : Fin 1) (i 1) :=
  funext fun a => Fin.ext (by match a with | ⟨0, _⟩ => rfl | ⟨1, _⟩ => rfl)

/-- The reference's result, as a function of its three arguments, is the scaled linear map with bias. -/
theorem reference_eq (x : FVec Ideal S65536x512 .f32) (w : FVec Ideal S256x512 .f32) (b : FVec Ideal S1x256 .f32) :
    val_main_v8 (F := Ideal) x w b = scaledLinear x w b := by
  funext i
  rw [val_main_v8_apply, val_main_v4_apply, val_main_v2_apply, val_main_v3_apply, val_main_v1_apply,
    val_main_cst_0_apply, val_main_v0_apply, val_main_cst_apply, val_main_v7_apply, val_main_v6_apply,
    val_main_v5_apply, val_main_cst_1_apply]
  simp only [lidx_eq, ridx_eq, bidx_eq, Ideal.addf_def, Ideal.mulf_def, Ideal.hostDivf_def, Ideal.hostUnary_sqrt_def,
    Ideal.ofBits_def, one_div_sqrt_sixtyFour]
  rfl

end Cert.ReferenceIdeal.RefValue

end
-- ==== Proof.BlockValue.lean ====
/-
  The kernel body's stored value, read entry by entry.

  At one grid point the body holds a block of 2048 rows of `x`, all of `w` and the bias row. It multiplies the block
  by the transpose of `w` into a zero accumulator (a narrowing of the operands' format first, which changes no
  value on the extended reals), scales by the word of `0.125`, and adds the bias row times the word of `0.1`,
  repeated down the block's rows. So entry `(p, q)` of what it stores is

      (∑ k < 512, xblock (p, k) · w (q, k)) · 0.125 + bias (0, q) · 0.1 .
-/
import proofs.«156276_j60790967108190_1_alg».proof.Proof.Gen.KernelIdeal.Skeleton
import proofs.«156276_j60790967108190_1_alg».proof.Proof.Spec
import Idealize.ShloMosaic.Lib.ValueIdx
import Idealize.ShloMosaic.Lib.ValueLayout
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-! ## The block product's operand indices: both operands keep their rows and contract their columns -/

/-- The left operand's row is the output's row. -/
theorem lhs_row (i : S2048x256.Idx) (q : dot_S2048x512_S256x512_S2048x256_1_1_0_0_n_n.contr.Idx) :
    (dot_S2048x512_S256x512_S2048x256_1_1_0_0_n_n.lhsIdx i q 0).val = (i 0).val := by
  unfold DotDims.lhsIdx
  rw [dif_neg (show ¬(0 : Fin S2048x512.rank) ∈ dot_S2048x512_S256x512_S2048x256_1_1_0_0_n_n.lhsBatch by decide),
    dif_pos (show (0 : Fin S2048x512.rank) ∈ dot_S2048x512_S256x512_S2048x256_1_1_0_0_n_n.lhsNonContracting by decide)]
  rfl

/-- The left operand's column is the summed coordinate. -/
theorem lhs_col (i : S2048x256.Idx) (q : dot_S2048x512_S256x512_S2048x256_1_1_0_0_n_n.contr.Idx) :
    (dot_S2048x512_S256x512_S2048x256_1_1_0_0_n_n.lhsIdx i q 1).val = (q ⟨0, by decide⟩).val :=
  dot_S2048x512_S256x512_S2048x256_1_1_0_0_n_n.lhsIdx_val_of_single rfl i q

/-- The right operand's row is the output's column. -/
theorem rhs_row (i : S2048x256.Idx) (q : dot_S2048x512_S256x512_S2048x256_1_1_0_0_n_n.contr.Idx) :
    (dot_S2048x512_S256x512_S2048x256_1_1_0_0_n_n.rhsIdx i q 0).val = (i 1).val := by
  unfold DotDims.rhsIdx
  rw [dif_neg (show ¬(0 : Fin S256x512.rank) ∈ dot_S2048x512_S256x512_S2048x256_1_1_0_0_n_n.rhsBatch by decide),
    dif_pos (show (0 : Fin S256x512.rank) ∈ dot_S2048x512_S256x512_S2048x256_1_1_0_0_n_n.rhsNonContracting by decide)]
  rfl

/-- The right operand's column is the summed coordinate. -/
theorem rhs_col (i : S2048x256.Idx) (q : dot_S2048x512_S256x512_S2048x256_1_1_0_0_n_n.contr.Idx) :
    (dot_S2048x512_S256x512_S2048x256_1_1_0_0_n_n.rhsIdx i q 1).val = (q ⟨0, by decide⟩).val :=
  dot_S2048x512_S256x512_S2048x256_1_1_0_0_n_n.rhsIdx_val_of_single rfl i q

/-- The block product into the zero accumulator at entry `(p, q)`: the sum over the 512 shared columns of the left
    operand's row `p` against the right operand's row `q`. -/
theorem block_product_apply (a : FVec Ideal S2048x512 .bf16) (b : FVec Ideal S256x512 .bf16) (p : Fin 2048) (q : Fin 256) :
    matmul dot_S2048x512_S256x512_S2048x256_1_1_0_0_n_n none a b (constant S2048x256 .f32 0x00000000#32) (ix2 p q)
      = ∑ k : Fin 512, a (ix2 p k) * b (ix2 q k) := by
  simp only [matmul]
  rw [Ideal.matmul_constant_zero_apply, ← Equiv.sum_comp (contrEquiv1 dot_S2048x512_S256x512_S2048x256_1_1_0_0_n_n 512 rfl rfl).symm]
  refine Finset.sum_congr rfl fun k _ => ?_
  have hk := contrEquiv1_symm_val dot_S2048x512_S256x512_S2048x256_1_1_0_0_n_n 512 rfl rfl k
  have el : dot_S2048x512_S256x512_S2048x256_1_1_0_0_n_n.lhsIdx (ix2 p q) ((contrEquiv1 dot_S2048x512_S256x512_S2048x256_1_1_0_0_n_n 512 rfl rfl).symm k) = ix2 p k := funext fun ax => Fin.ext (by
    match ax with
    | ⟨0, _⟩ => exact lhs_row _ _
    | ⟨1, _⟩ => exact (lhs_col _ _).trans hk)
  have er : dot_S2048x512_S256x512_S2048x256_1_1_0_0_n_n.rhsIdx (ix2 p q) ((contrEquiv1 dot_S2048x512_S256x512_S2048x256_1_1_0_0_n_n 512 rfl rfl).symm k) = ix2 q k := funext fun ax => Fin.ext (by
    match ax with
    | ⟨0, _⟩ => exact rhs_row _ _
    | ⟨1, _⟩ => exact (rhs_col _ _).trans hk)
  rw [el, er]

/-! ## The stored value at an entry -/

/-- Entry `(p, q)` of what the body stores, from the three blocks it loads. -/
theorem stored_apply (x0 : Vec Ideal S2048x512 .f32) (x1 : Vec Ideal S256x512 .f32) (x2 : Vec Ideal S1x256 .f32)
    (p : Fin 2048) (q : Fin 256) :
    k0_pay1 (F := Ideal) x0 x1 x2 (ix2 p q)
      = (∑ k : Fin 512, x0 (ix2 p k) * x1 (ix2 q k)) * Ideal.ofBits .f32 0x3E000000#32
        + x2 (ix2 (0 : Fin 1) q) * Ideal.ofBits .f32 0x3DCCCCCD#32 := by
  unfold k0_pay1
  rw [addf_apply, mulf_apply, block_product_apply, broadcast_apply, broadcastTo_1b_ab_apply, mulf_apply, broadcast_apply]
  rfl

end Cert.KernelIdeal.BlockValue

end
-- ==== Proof.ArrayValue.lean ====
/-
  From the grid's blocks to the whole output array.

  The grid has 32 points. Point `t` holds rows `2048·t … 2048·t + 2047` of `x`, all of `w` and the bias row, and writes
  rows `2048·t … 2048·t + 2047` of the output, all 256 columns. Entry `(p, q)` of what it writes is the stored value at
  `(p, q)` of those blocks, which is the scaled linear map of the whole arrays at `(2048·t + p, q)`: row `p` of the
  `x` block is row `2048·t + p` of `x`, and `w` and the bias are read whole. The 32 row blocks cover every row of the
  output (row `r` lies in block `r / 2048`), so after the run the output array is the scaled linear map of the
  argument arrays.
-/
import proofs.«156276_j60790967108190_1_alg».proof.Proof.Gen.KernelIdeal.Value
import proofs.«156276_j60790967108190_1_alg».proof.Proof.BlockValue

set_option maxRecDepth 16384

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Cert.ScaledLinear
open Idealize.ShloMosaic.Pipeline (Dat)

variable (m : (ℓ : Loc nD τ sig) → Buf (Elt Ideal) ℓ) (ρ : Dev nD → PrngReg)

/-- Every access of the body starts at the corner of its buffer. -/
theorem origin_zero : (![0, 0] : Fin 2 → Nat) = fun _ => 0 := funext fun a => by fin_cases a <;> rfl

/-- The block index maps over the grid: the `x` window and the output window sit at row block `t`, column block `0`;
    the `w` and bias windows stay at the one block they have. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every row block of the output is some point's. -/
theorem index_onto : ∀ (q0 : Fin 32), ∃ t : Fin cfg0.N, win0_3.index t = ![q0.val, 0] :=
  (by decide +kernel : ∀ (q0 : Fin 32), ∃ t : Fin grid0.N, win0_3.index t = ![q0.val, 0])

/-- The stored value of three blocks is the scaled linear map of three whole arrays read through `e`, as soon as
    row `p` of the first block is the row of `X` that `e` names, row `q` of the second block is the row of `W` named by
    `e`'s column, and the third block's entry `(0, q)` is `B`'s at `e`'s column. -/
theorem stored_eq_spec (x0 : Vec Ideal S2048x512 .f32) (x1 : Vec Ideal S256x512 .f32) (x2 : Vec Ideal S1x256 .f32)
    (X : FVec Ideal S65536x512 .f32) (W : FVec Ideal S256x512 .f32) (B : FVec Ideal S1x256 .f32)
    (e : S2048x256.Idx → S65536x256.Idx)
    (hx : ∀ (j : S2048x256.Idx) (k : Fin 512), x0 (ix2 (j 0) k) = X (ix2 (e j 0) k))
    (hw : ∀ (j : S2048x256.Idx) (k : Fin 512), x1 (ix2 (j 1) k) = W (ix2 (e j 1) k))
    (hb : ∀ (j : S2048x256.Idx), x2 (ix2 (0 : Fin 1) (j 1)) = B (ix2 (0 : Fin 1) (e j 1))) :
    k0_pay1 (F := Ideal) x0 x1 x2 = fun j => scaledLinear X W B (e j) := by
  funext j
  obtain ⟨p, q, rfl⟩ : ∃ (p : Fin 2048) (q : Fin 256), j = ix2 p q := ⟨j 0, j 1, eq_ix2 j⟩
  have hs : (∑ k : Fin 512, x0 (ix2 p k) * x1 (ix2 q k))
      = ∑ k : Fin 512, X (ix2 (e (ix2 p q) 0) k) * W (ix2 (e (ix2 p q) 1) k) :=
    Finset.sum_congr rfl fun k _ => congrArg₂ (· * ·) (hx (ix2 p q) k) (hw (ix2 p q) k)
  have hb' : x2 (ix2 (0 : Fin 1) q) = B (ix2 (0 : Fin 1) (e (ix2 p q) 1)) := hb (ix2 p q)
  rw [BlockValue.stored_apply, hs, hb']
  rfl

/-- What point `t` writes back is block `t` of the scaled linear map of the argument arrays. -/
theorem flushed_eq (c : Dev nD) (t : Fin cfg0.N) :
    (dats m 0 c).flushed 3 t
      = ((cfg0.win 3).blk t).view.read (Elt Ideal) (scaledLinear (V m c main_arg0) (V m c main_arg1) (V m c main_arg2)) := by
  rw [Value.flushed3]
  unfold out0_3
  rw [View.canon_unit_zero origin_zero]
  simp only [View.ld_unit_zero (S := S2048x512) origin_zero, View.ld_unit_zero (S := S256x512) origin_zero,
    View.ld_unit_zero (S := S1x256) origin_zero]
  obtain ⟨e0, e1, e2, e3, e4, e5, e6, e7⟩ := index_facts t
  show k0_pay1 (F := Ideal) (iblk m c 0 t) (iblk m c 1 t) (iblk m c 2 t)
    = fun j => scaledLinear (V m c main_arg0) (V m c main_arg1) (V m c main_arg2) (((cfg0.win 3).blk t).view.emb j)
  refine stored_eq_spec (iblk m c 0 t) (iblk m c 1 t) (iblk m c 2 t) (V m c main_arg0) (V m c main_arg1) (V m c main_arg2)
    (fun j => ((cfg0.win 3).blk t).view.emb j) ?_ ?_ ?_
  · -- row p of the x block is row 2048·t + p of x
    intro j k
    have h : ((cfg0.win 0).blk t).view.emb (ix2 (j 0) k) = ix2 (((cfg0.win 3).blk t).view.emb j 0) k := by
      funext a; apply Fin.ext
      match a with
      | ⟨0, _⟩ => show win0_0.index t (0 : Fin 2) * 2048 + 1 * (j 0).val = win0_3.index t (0 : Fin 2) * 2048 + 1 * (j 0).val; omega
      | ⟨1, _⟩ => show win0_0.index t (1 : Fin 2) * 512 + 1 * k.val = k.val; omega
    show V m c main_arg0 (((cfg0.win 0).blk t).view.emb (ix2 (j 0) k)) = _
    rw [h]
    rfl
  · -- w is read whole
    intro j k
    have h : ((cfg0.win 1).blk t).view.emb (ix2 (j 1) k) = ix2 (((cfg0.win 3).blk t).view.emb j 1) k := by
      funext a; apply Fin.ext
      match a with
      | ⟨0, _⟩ => show win0_1.index t (0 : Fin 2) * 256 + 1 * (j 1).val = win0_3.index t (1 : Fin 2) * 256 + 1 * (j 1).val; omega
      | ⟨1, _⟩ => show win0_1.index t (1 : Fin 2) * 512 + 1 * k.val = k.val; omega
    show V m c main_arg1 (((cfg0.win 1).blk t).view.emb (ix2 (j 1) k)) = _
    rw [h]
    rfl
  · -- the bias row is read whole
    intro j
    have h : ((cfg0.win 2).blk t).view.emb (ix2 (0 : Fin 1) (j 1)) = ix2 (0 : Fin 1) (((cfg0.win 3).blk t).view.emb j 1) := by
      funext a; apply Fin.ext
      match a with
      | ⟨0, _⟩ => show win0_2.index t (0 : Fin 2) * 1 + 1 * 0 = 0; omega
      | ⟨1, _⟩ => show win0_2.index t (1 : Fin 2) * 256 + 1 * (j 1).val = win0_3.index t (1 : Fin 2) * 256 + 1 * (j 1).val; omega
    show V m c main_arg2 (((cfg0.win 2).blk t).view.emb (ix2 (0 : Fin 1) (j 1))) = _
    rw [h]
    rfl

/-- An entry of the output lies in point `t`'s block exactly when each coordinate lies in the block's range. -/
theorem mem_blk (t : Fin cfg0.N) (i : S65536x256.Idx) :
    i ∈ ((cfg0.win 3).blk t).view.set ↔ ∀ a : Fin 2, win0_3.index t a * S2048x256.size a ≤ (i a).val
      ∧ (i a).val < win0_3.index t a * S2048x256.size a + S2048x256.size a := by
  show i ∈ ((View.whole main_v0).slice (win0_3.rect t)).set ↔ _
  rw [View.set_slice_whole, Rect.mem_set_unit]
  exact Iff.rfl

/-- Every entry of the output lies in some point's block: row `r` in the block of point `r / 2048`. -/
theorem cover (i : S65536x256.Idx) :
    ∃ t : Fin cfg0.N, (cfg0.win 3).flush t = true ∧ i ∈ ((cfg0.win 3).blk t).view.set := by
  have hi0 : (i 0).val < 65536 := (i 0).isLt
  have hi1 : (i 1).val < 256 := (i 1).isLt
  obtain ⟨t, ht⟩ := index_onto ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 256 ≤ (i 1).val ∧ (i 1).val < win0_3.index t (1 : Fin 2) * 256 + 256
    omega

/-- After the run the output array is the scaled linear map of the argument arrays. -/
theorem final (c : Dev nD) :
    (dats m 0 c).arrAt 3 cfg0.N
      = scaledLinear (m ((c : Thread nD τ).loc main_arg0)) (m ((c : Thread nD τ).loc main_arg1)) (m ((c : Thread nD τ).loc main_arg2)) :=
  (dats m 0 c).arrAt_eq_of_cover 3 (scaledLinear (V m c main_arg0) (V m c main_arg1) (V m c main_arg2))
    (fun t _ => flushed_eq m c t) cover

/-- The kernel's run with its result named: the scaled linear map of the arguments, which end unchanged. -/
theorem run : θ_run defs (onTc (τ := τ) (main (F := Ideal))) ⟨m, fun _ => 0, ρ⟩ fun r => ∀ c : Dev nD,
      r.2.mem ((c : Thread nD τ).loc main_v0)
        = scaledLinear (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.lean ====
/-
  A linear layer with a fixed scale and a scaled bias, tiled over the batch, against its plain-array statement.

  For `x : [65536, 512]`, `w : [256, 512]` and `b : [1, 256]` both programs compute, at entry `(r, o)`,

      (∑ k < 512, x (r, k) · w (o, k)) · (1 / 8) + b (0, o) · c

  on the extended reals, where `c` is the float word of `0.1`, the same word on both sides. The tiled program walks 32
  blocks of 2048 rows; at each it multiplies the block by the transpose of `w`, scales by the float word of
  `0.125`, adds the scaled bias row and writes 2048 rows of the output; the blocks cover every row. The plain program
  forms the whole product at once and scales it by `1 / √64`, which is exactly `1 / 8`, the value the word of `0.125`
  denotes. No law beyond that equality of constants is used: both sides are the same sum, product and sum, so
  nothing is asked of the inputs.

  The modules: `Spec` states the function and the constant; `RefValue` reads the plain program's stages entry by
  entry; `BlockValue` reads what one grid point stores, entry by entry; `ArrayValue` goes from the 32 blocks to the
  whole array. The idealized tiled program is the word-level one read on the extended reals with no rewrite, so
  there is nothing to preserve.
-/
import proofs.«156276_j60790967108190_1_alg».proof.Defs
import proofs.«156276_j60790967108190_1_alg».proof.Proof.Gen.Kernel
import proofs.«156276_j60790967108190_1_alg».proof.Proof.Gen.Kernel.Skeleton
import proofs.«156276_j60790967108190_1_alg».proof.Proof.Gen.Kernel.Launch
import proofs.«156276_j60790967108190_1_alg».proof.Proof.Gen.Kernel.Points
import proofs.«156276_j60790967108190_1_alg».proof.Proof.Gen.Kernel.Frame
import proofs.«156276_j60790967108190_1_alg».proof.Proof.Gen.KernelIdeal
import proofs.«156276_j60790967108190_1_alg».proof.Proof.Gen.KernelIdeal.Skeleton
import proofs.«156276_j60790967108190_1_alg».proof.Proof.Gen.KernelIdeal.Launch
import proofs.«156276_j60790967108190_1_alg».proof.Proof.Gen.KernelIdeal.Points
import proofs.«156276_j60790967108190_1_alg».proof.Proof.Gen.KernelIdeal.Frame
import proofs.«156276_j60790967108190_1_alg».proof.Proof.Gen.ReferenceIdeal
import proofs.«156276_j60790967108190_1_alg».proof.Proof.Gen.Pre_finite_inputs
import proofs.«156276_j60790967108190_1_alg».proof.Proof.Gen.KernelIdeal.Value
import proofs.«156276_j60790967108190_1_alg».proof.Proof.Gen.ReferenceIdeal.Run
import proofs.«156276_j60790967108190_1_alg».proof.Proof.Gen.ReferenceIdeal.Read
import proofs.«156276_j60790967108190_1_alg».proof.Proof.Spec
import proofs.«156276_j60790967108190_1_alg».proof.Proof.RefValue
import proofs.«156276_j60790967108190_1_alg».proof.Proof.BlockValue
import proofs.«156276_j60790967108190_1_alg».proof.Proof.ArrayValue
import Idealize.ShloMosaic.Adequacy
import Idealize.ShloMosaic.Init

noncomputable section

namespace Cert.Proof

open Idealize.ShloMosaic Idealize.ShloMosaic.TcCoe Idealize.SL.Sem

/-- The word-level tiled program runs to the end and leaves its arguments as they were. -/
theorem frame_tiled : Cert.frame_Kernel := fun m ρ _ => Cert.Kernel.Gen.frame m ρ

/-- So does the tiled program read on the extended reals. -/
theorem frame_tiled_ideal : Cert.frame_KernelIdeal := fun m ρ _ => Cert.KernelIdeal.Gen.frame m ρ

/-- The plain program runs to the end and leaves its arguments as they were: its run, with the result dropped. -/
theorem frame_plain : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the scaled linear map of those arguments:
    the tiled one by the cover of its 32 row blocks, the plain one stage by stage, `1 / √64` being `0.125`. -/
theorem same_result : Cert.algebraic_KernelIdeal_ReferenceIdeal := by
  intro m ρ m' ρ' _ hagree
  refine ⟨fun c => Cert.ScaledLinear.scaledLinear (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.reference_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_tiled, frame_tiled_ideal, frame_plain, trivial, same_result⟩

end Cert.Proof

end
